-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S512x1024_S512 : S512x1024.Reduces [1] S512
  shapeCasts_S512_S512x1 : S512.ShapeCasts S512x1
  reduces_S1024x1024_S1024 : S1024x1024.Reduces [1] S1024
  shapeCasts_S1024_S1x1024 : S1024.ShapeCasts S1x1024
  broadcasts_S512x1_S512x1024 : S512x1.Broadcasts S512x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x1024_S1024_d1 : S1024x1024.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Yat.lean ====
/-
  The yat similarity of two vectors of length 1024, and the score table it gives for 16384 samples against
  1024 prototypes, on the extended reals.

  For vectors u, v the score is  ⟨u,v⟩² / ((‖u‖² + ‖v‖²) − 2·⟨u,v⟩ + ε), every sum a plain sum over the 1024
  coordinates, the quotient the ideal division, and the two literals (the factor 2 and the small ε in the
  denominator) kept as the binary words both programs print.  Both programs compute this per pair
  (sample row r, prototype row c); nothing here mentions either program.
-/
import Idealize.ShloMosaic.PureOps.Ideal
import Idealize.ShloMosaic.Lib.ValueIdx

noncomputable section

open scoped BigOperators

namespace Cert.Yat

open Idealize.ShloMosaic Idealize.ShloMosaic.ValueIdx

/-- The factor of the cross term, the word of 2.0. -/
abbrev two : EReal := Ideal.ofBits .f32 0x40000000#32

/-- The denominator's guard, the word nearest 1e-6. -/
abbrev eps : EReal := Ideal.ofBits .f32 0x358637BD#32

/-- The inner product of two length-1024 vectors. -/
def inner (u v : Fin 1024 → EReal) : EReal := ∑ k : Fin 1024, u k * v k

/-- The yat score of a sample vector u against a prototype vector v. -/
def yat (u v : Fin 1024 → EReal) : EReal :=
  Ideal.div (inner u v * inner u v) (((inner u u + inner v v) - two * inner u v) + eps)

/-- Row r of a table of 16384 samples. -/
def sampleRow (X : (⟨2, ![16384, 1024]⟩ : Shape).Idx → EReal) (r : Fin 16384) : Fin 1024 → EReal :=
  fun k => X (ix2 r k)

/-- Row p of a block of 512 samples. -/
def blockRow (B : (⟨2, ![512, 1024]⟩ : Shape).Idx → EReal) (p : Fin 512) : Fin 1024 → EReal :=
  fun k => B (ix2 p k)

/-- Row c of the table of 1024 prototypes. -/
def protoRow (P : (⟨2, ![1024, 1024]⟩ : Shape).Idx → EReal) (c : Fin 1024) : Fin 1024 → EReal :=
  fun k => P (ix2 c k)

/-- The whole score table: entry (r, c) is the score of sample r against prototype c. -/
def scores (X : (⟨2, ![16384, 1024]⟩ : Shape).Idx → EReal) (P : (⟨2, ![1024, 1024]⟩ : Shape).Idx → EReal) :
    (⟨2, ![16384, 1024]⟩ : Shape).Idx → EReal :=
  fun i => yat (sampleRow X (i 0)) (protoRow P (i 1))

/-- The score table of one block of 512 samples. -/
def blockScores (B : (⟨2, ![512, 1024]⟩ : Shape).Idx → EReal) (P : (⟨2, ![1024, 1024]⟩ : Shape).Idx → EReal) :
    (⟨2, ![512, 1024]⟩ : Shape).Idx → EReal :=
  fun i => yat (blockRow B (i 0)) (protoRow P (i 1))

theorem scores_ix2 (X : (⟨2, ![16384, 1024]⟩ : Shape).Idx → EReal) (P : (⟨2, ![1024, 1024]⟩ : Shape).Idx → EReal)
    (r : Fin 16384) (c : Fin 1024) : scores X P (ix2 r c) = yat (sampleRow X r) (protoRow P c) := rfl

theorem blockScores_ix2 (B : (⟨2, ![512, 1024]⟩ : Shape).Idx → EReal) (P : (⟨2, ![1024, 1024]⟩ : Shape).Idx → EReal)
    (p : Fin 512) (c : Fin 1024) : blockScores B P (ix2 p c) = yat (blockRow B p) (protoRow P c) := rfl

end Cert.Yat

end
-- ==== Proof.RefScores.lean ====
/-
  The reference's result is the score table.

  Read one operation at a time, the reference forms at entry (r, c): the contraction of sample row r with
  prototype row c; the two squared norms, each a host sum over the 1024 coordinates started from the zero word
  and then spread along the other axis; their sum less twice the contraction, plus ε; and the host quotient of
  the contraction's square by that.  On the extended reals the zero word is 0, so the sums are the plain inner
  products and the entry is the yat score of the two rows.
-/
import proofs.«176568_j34213709480382_1_alg».proof.Proof.Gen.ReferenceIdeal.Read
import proofs.«176568_j34213709480382_1_alg».proof.Proof.Yat

noncomputable section

open scoped BigOperators

namespace Cert.Yat.Ref

open Cert.ReferenceIdeal Cert.ReferenceIdeal.Gen Cert.ReferenceIdeal.Read
open Idealize.ShloMosaic Idealize.ShloMosaic.ValueIdx Idealize.ShloMosaic.TcCoe

/-- The contraction's left operand index at entry (r, c) and coordinate k is (r, k). -/
theorem lidx_eq (r : Fin 16384) (c : Fin 1024) (k : Fin 1024) : lidx_main_v0 (ix2 r c) k = ix2 r k :=
  funext fun a => Fin.ext (by match a with | ⟨0, _⟩ => rfl | ⟨1, _⟩ => rfl)

/-- Its right operand index is (c, k). -/
theorem ridx_eq (r : Fin 16384) (c : Fin 1024) (k : Fin 1024) : ridx_main_v0 (ix2 r c) k = ix2 c k :=
  funext fun a => Fin.ext (by match a with | ⟨0, _⟩ => rfl | ⟨1, _⟩ => rfl)

/-- The samples' squared norm spread to entry (r, c) sums row r. -/
theorem xsq_idx_eq (r : Fin 16384) (c : Fin 1024) (k : Fin 1024) :
    idx_main_v2 (idx_main_v3 (idx_main_v7 (ix2 r c))) k = ix2 r k :=
  funext fun a => Fin.ext (by match a with | ⟨0, _⟩ => rfl | ⟨1, _⟩ => rfl)

/-- The prototypes' squared norm spread to entry (r, c) sums row c. -/
theorem psq_idx_eq (r : Fin 16384) (c : Fin 1024) (k : Fin 1024) :
    idx_main_v5 (idx_main_v6 (idx_main_v8 (ix2 r c))) k = ix2 c k :=
  funext fun a => Fin.ext (by match a with | ⟨0, _⟩ => rfl | ⟨1, _⟩ => rfl)

/-- The reference's last stage is the score table of its two arguments. -/
theorem result_eq (X : (⟨S16384x1024, .f32⟩ : BufTy).Contents (Elt Ideal)) (P : (⟨S1024x1024, .f32⟩ : BufTy).Contents (Elt Ideal)) :
    val_main_v16 (F := Ideal) X P = Cert.Yat.scores X P := by
  funext i
  obtain ⟨r, c, rfl⟩ : ∃ (r : Fin 16384) (c : Fin 1024), i = ix2 r c := ⟨i 0, i 1, eq_ix2 i⟩
  rw [Cert.Yat.scores_ix2, val_main_v16_apply, val_main_v13_apply, val_main_v15_apply, val_main_v12_apply, val_main_v14_apply,
    val_main_v11_apply, val_main_v10_apply, val_main_v9_apply, val_main_v8_apply, val_main_v7_apply, val_main_v6_apply,
    val_main_v3_apply, val_main_v5_apply, val_main_v2_apply, val_main_v0_apply]
  simp only [val_main_v1_apply, val_main_v4_apply, val_main_cst_apply, val_main_cst_0_apply, val_main_cst_1_apply,
    val_main_cst_2_apply, lidx_eq, ridx_eq, xsq_idx_eq, psq_idx_eq, Ideal.hostDivf_def, Ideal.mulf_def, Ideal.addf_def,
    Ideal.subf_def, Ideal.ofBits_def, Ideal.ofBits_zero_f32, zero_add]
  rfl

end Cert.Yat.Ref

end
-- ==== Proof.Body.lean ====
/-
  One block's worth of the kernel's arithmetic is the block's score table.

  From a block of 512 sample rows and the whole prototype table the body forms, at entry (p, c): the product of
  the two tables contracted over their shared length-1024 axis, into a zero accumulator, of the operands narrowed to
  a shorter float format (on the extended reals narrowing changes nothing); each table's row sums of squares, the
  samples' kept as a column and spread along the rows' entries, the prototypes' kept as a row and spread down the
  block; their sum less twice the product, plus ε; and the quotient of the product's square by that.  Read at
  (p, c) this is the yat score of sample row p against prototype row c.
-/
import proofs.«176568_j34213709480382_1_alg».proof.Proof.Gen.KernelIdeal.Skeleton
import proofs.«176568_j34213709480382_1_alg».proof.Proof.Yat
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Yat.Body

open Cert.KernelIdeal Cert.KernelIdeal.Gen
open Idealize.ShloMosaic Idealize.ShloMosaic.ValueIdx Idealize.ShloMosaic.TcCoe

/-! ## The contraction -/

theorem lhs_axis0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_axis1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_axis0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_axis1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into the zero accumulator, at entry (p, c): the sum over k of left (p, k) times right (c, k) — both
    operands are contracted along their second axis. -/
theorem product_entry (a : FVec Ideal S512x1024 .bf16) (b : FVec Ideal S1024x1024 .bf16) (p : Fin 512) (c : Fin 1024) :
    matmul dot_S512x1024_S1024x1024_S512x1024_1_1_0_0_n_n none a b (constant S512x1024 .f32 0x00000000#32) (ix2 p c)
      = ∑ k : Fin 1024, a (ix2 p k) * b (ix2 c k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p c) ((contrEquiv1 dot_S512x1024_S1024x1024_S512x1024_1_1_0_0_n_n 1024 rfl rfl).symm k) = ix2 p k := funext fun ax => Fin.ext (by
    match ax with
    | ⟨0, _⟩ => exact lhs_axis0 _ _
    | ⟨1, _⟩ => exact (lhs_axis1 _ _).trans hk)
  have er : dot_S512x1024_S1024x1024_S512x1024_1_1_0_0_n_n.rhsIdx (ix2 p c) ((contrEquiv1 dot_S512x1024_S1024x1024_S512x1024_1_1_0_0_n_n 1024 rfl rfl).symm k) = ix2 c k := funext fun ax => Fin.ext (by
    match ax with
    | ⟨0, _⟩ => exact rhs_axis0 _ _
    | ⟨1, _⟩ => exact (rhs_axis1 _ _).trans hk)
  rw [el, er]

/-- With the operands narrowed first: the inner product of sample row p and prototype row c. -/
theorem dots_entry (x : FVec Ideal S512x1024 .f32) (w : FVec Ideal S1024x1024 .f32) (h : FTy.bits .bf16 < FTy.bits .f32)
    (p : Fin 512) (c : Fin 1024) :
    matmul dot_S512x1024_S1024x1024_S512x1024_1_1_0_0_n_n none (truncf .bf16 x h) (truncf .bf16 w h)
        (constant S512x1024 .f32 0x00000000#32) (ix2 p c)
      = Cert.Yat.inner (Cert.Yat.blockRow x p) (Cert.Yat.protoRow w c) :=
  product_entry (truncf .bf16 x h) (truncf .bf16 w h) p c

/-! ## Row sums -/

/-- The sum along the second axis of a 512 × 1024 table, at row p. -/
theorem rowSum512 (v : FVec Ideal S512x1024 .f32) (h : S512x1024.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 1024, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-- The sum along the second axis of a 1024 × 1024 table, at row c. -/
theorem rowSum1024 (v : FVec Ideal S1024x1024 .f32) (h : S1024x1024.Reduces [1] S1024) (hφ : FKind.Formats .f32)
    (hacc : (0x00000000#32 : BitVec 32) = FKind.add.neutral .f32 hφ) (c : Fin 1024) :
    multiReduction .add [1] S1024 v 0x00000000#32 h hφ hacc (ix1 c) = ∑ k : Fin 1024, v (ix2 c k) := by
  refine (Ideal.multiReduction_add_single v 0x00000000#32 h hφ hacc (ix1 c)).trans ?_
  refine Finset.sum_congr rfl fun k _ => congrArg v (funext fun ax => Fin.ext ?_)
  match ax with
  | ⟨0, _⟩ => rfl
  | ⟨1, _⟩ => rfl

/-! ## A column of 512 values kept with a unit second axis and spread along the rows -/

variable {α : Type}

/-- A length-512 vector viewed as a 512 × 1 column reads, at (p, u), the vector at p. -/
theorem column_entry (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    omega)

/-- A 512 × 1 column spread to 512 × 1024 reads, at (p, c), the column at p. -/
theorem spreadColumn_entry (v : S512x1.Idx → α) (h : S512x1.Broadcasts S512x1024) (p : Fin 512) (c : Fin 1024) :
    broadcastTo S512x1024 v h (ix2 p c) = v (ix2 p (0 : Fin 1)) := by
  refine broadcastTo_apply v h (ix2 p c) (ix2 p (0 : Fin 1)) fun ax => ?_
  match ax with
  | ⟨0, _⟩ =>
    show p.val = if (512 : Nat) = 1 then 0 else p.val
    rw [if_neg (by decide)]
  | ⟨1, _⟩ => rfl

/-- The samples' squared norms, spread: at (p, c) the squared norm of sample row p. -/
theorem sampleNorm_entry (x : FVec Ideal S512x1024 .f32) (h : S512x1024.Reduces [1] S512) (hφ : FKind.Formats .f32)
    (hacc : (0x00000000#32 : BitVec 32) = FKind.add.neutral .f32 hφ) (hc : S512.ShapeCasts S512x1)
    (hb : S512x1.Broadcasts S512x1024) (p : Fin 512) (c : Fin 1024) :
    broadcastTo S512x1024 (shapeCast S512x1 (multiReduction .add [1] S512 (mulf x x) 0x00000000#32 h hφ hacc) hc) hb (ix2 p c)
      = Cert.Yat.inner (Cert.Yat.blockRow x p) (Cert.Yat.blockRow x p) :=
  (spreadColumn_entry _ hb p c).trans ((column_entry _ hc p 0).trans (rowSum512 (mulf x x) h hφ hacc p))

/-- The prototypes' squared norms, spread: at (p, c) the squared norm of prototype row c. -/
theorem protoNorm_entry (w : FVec Ideal S1024x1024 .f32) (h : S1024x1024.Reduces [1] S1024) (hφ : FKind.Formats .f32)
    (hacc : (0x00000000#32 : BitVec 32) = FKind.add.neutral .f32 hφ) (hc : S1024.ShapeCasts S1x1024)
    (hb : S1x1024.Broadcasts S512x1024) (p : Fin 512) (c : Fin 1024) :
    broadcastTo S512x1024 (shapeCast S1x1024 (multiReduction .add [1] S1024 (mulf w w) 0x00000000#32 h hφ hacc) hc) hb (ix2 p c)
      = Cert.Yat.inner (Cert.Yat.protoRow w c) (Cert.Yat.protoRow w c) :=
  (broadcastTo_1b_ab_apply _ hb p c).trans ((shapeCast_a_1a_apply _ hc 0 c).trans (rowSum1024 (mulf w w) h hφ hacc c))

/-! ## The body's stored value -/

/-- What the body stores, at entry (p, c) of the block: the yat score of sample row p against prototype row c. -/
theorem stored_entry (x : Vec Ideal S512x1024 .f32) (w : Vec Ideal S1024x1024 .f32) (p : Fin 512) (c : Fin 1024) :
    k0_pay1 (F := Ideal) x w (ix2 p c) = Cert.Yat.yat (Cert.Yat.blockRow x p) (Cert.Yat.protoRow w c) := by
  have hM := dots_entry x w bitsLt_bf16_f32 p c
  have hA := sampleNorm_entry x reduces_S512x1024_S512 (.inl rfl) rfl shapeCasts_S512_S512x1 broadcasts_S512x1_S512x1024 p c
  have hB := protoNorm_entry w reduces_S1024x1024_S1024 (.inl rfl) rfl shapeCasts_S1024_S1x1024 broadcasts_S1x1024_S512x1024 p c
  exact congrArg₂ Ideal.div (congrArg₂ (· * ·) hM hM)
    (congrArg₂ (· + ·) (congrArg₂ (· - ·) (congrArg₂ (· + ·) hA hB) (congrArg (Cert.Yat.two * ·) hM)) rfl)

/-- So the stored block is the block's score table. -/
theorem stored_eq (x : Vec Ideal S512x1024 .f32) (w : Vec Ideal S1024x1024 .f32) :
    k0_pay1 (F := Ideal) x w = Cert.Yat.blockScores x w := by
  funext i
  obtain ⟨p, c, rfl⟩ : ∃ (p : Fin 512) (c : Fin 1024), i = ix2 p c := ⟨i 0, i 1, eq_ix2 i⟩
  exact stored_entry x w p c

end Cert.Yat.Body

end
-- ==== Proof.KernelScores.lean ====
/-
  The kernel's result array is the score table.

  The grid has 32 points; point t stages rows 512·t … 512·t + 511 of the sample table, the whole prototype table,
  and writes back rows 512·t … 512·t + 511 of the result.  What it writes is its block's score table, and row p of
  the block is row 512·t + p of the sample table, so the written block is the whole score table read through the
  block.  The 32 row bands cover all 16384 rows (row r lies in band r / 512), hence the array after the run is the
  score table of the two arguments.
-/
import proofs.«176568_j34213709480382_1_alg».proof.Proof.Gen.KernelIdeal.Value
import proofs.«176568_j34213709480382_1_alg».proof.Proof.Body

noncomputable section

namespace Cert.Yat.Kernel

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three windows' block indices at a grid point, decided over the 32 points: the samples' and the result's
    row band is the point's number and their one column block is 0; the prototypes' block is always (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the sample block staged at point t is row 512·t + p of the sample table. -/
theorem sampleBlock_row (c : Dev nD) (t : Fin cfg0.N) (p : Fin 512) (r : Fin 16384) (hr : r.val = t.val * 512 + p.val) :
    Cert.Yat.blockRow (iblk m c 0 t) p = Cert.Yat.sampleRow (V m c main_arg0) r := by
  obtain ⟨e0, e1, -, -, -, -⟩ := index_facts t
  funext k
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The prototype block staged at any point is the whole prototype table. -/
theorem protoBlock_row (c : Dev nD) (t : Fin cfg0.N) (q : Fin 1024) :
    Cert.Yat.protoRow (iblk m c 1 t) q = Cert.Yat.protoRow (V m c main_arg1) q := by
  obtain ⟨-, -, e2, e3, -, -⟩ := index_facts t
  funext k
  show V m c main_arg1 (((cfg0.win 1).blk t).view.emb (ix2 q k)) = V m c main_arg1 (ix2 q k)
  refine congrArg _ (funext fun a => Fin.ext ?_)
  match a with
  | ⟨0, _⟩ => show win0_1.index t (0 : Fin 2) * 1024 + 1 * q.val = q.val; omega
  | ⟨1, _⟩ => show win0_1.index t (1 : Fin 2) * 1024 + 1 * k.val = k.val; omega

/-- What point t writes back is the score table of the arguments read through the point's block. -/
theorem flushed_eq (c : Dev nD) (t : Fin cfg0.N) :
    (dats m 0 c).flushed 2 t
      = ((cfg0.win 2).blk t).view.read (Elt Ideal) (Cert.Yat.scores (V m c main_arg0) (V m c main_arg1)) := by
  rw [flushed2]
  unfold out0_2
  rw [View.canon_unit_zero zero_offsets]
  simp only [View.ld_unit_zero (S := S512x1024) zero_offsets, View.ld_unit_zero (S := S1024x1024) zero_offsets]
  rw [Cert.Yat.Body.stored_eq (iblk m c 0 t) (iblk m c 1 t)]
  obtain ⟨-, -, -, -, e4, e5⟩ := index_facts t
  funext j
  obtain ⟨p, q, rfl⟩ : ∃ (p : Fin 512) (q : Fin 1024), j = ix2 p q := ⟨j 0, j 1, eq_ix2 j⟩
  have hr : win0_2.index t (0 : Fin 2) * 512 + 1 * p.val < 16384 := by
    have ht : t.val < 32 := t.isLt
    have := p.isLt; omega
  have hq : win0_2.index t (1 : Fin 2) * 1024 + 1 * q.val < 1024 := by have := q.isLt; omega
  show Cert.Yat.yat (Cert.Yat.blockRow (iblk m c 0 t) p) (Cert.Yat.protoRow (iblk m c 1 t) q)
    = Cert.Yat.yat (Cert.Yat.sampleRow (V m c main_arg0) ⟨win0_2.index t (0 : Fin 2) * 512 + 1 * p.val, hr⟩)
        (Cert.Yat.protoRow (V m c main_arg1) ⟨win0_2.index t (1 : Fin 2) * 1024 + 1 * q.val, hq⟩)
  rw [sampleBlock_row m c t p ⟨win0_2.index t (0 : Fin 2) * 512 + 1 * p.val, hr⟩ (by show win0_2.index t (0 : Fin 2) * 512 + 1 * p.val = t.val * 512 + p.val; omega),
    protoBlock_row m c t q]
  refine congrArg (fun z => Cert.Yat.yat _ (Cert.Yat.protoRow _ z)) (Fin.ext ?_)
  show q.val = win0_2.index t (1 : Fin 2) * 1024 + 1 * q.val
  omega

/-- An index of the result array is in point t's block iff each coordinate is in the block's range on its axis. -/
theorem mem_block (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every entry of the result array lies in some point's block: row r in the band of point r / 512. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := rfl
  refine ⟨⟨(i 0).val / 512, by rw [hN]; omega⟩, flush0_2 _, ?_⟩
  obtain ⟨-, -, -, -, e4, e5⟩ := index_facts ⟨(i 0).val / 512, by rw [hN]; omega⟩
  rw [mem_block]
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 1024 ≤ (i 1).val ∧ (i 1).val < win0_2.index _ (1 : Fin 2) * 1024 + 1024
    rw [e5]; omega

/-- The result array after the run is the score table of the two argument arrays. -/
theorem final (c : Dev nD) :
    (dats m 0 c).arrAt 2 cfg0.N
      = Cert.Yat.scores (m ((c : Thread nD τ).loc main_arg0)) (m ((c : Thread nD τ).loc main_arg1)) :=
  (dats m 0 c).arrAt_eq_of_cover 2 (Cert.Yat.scores (V m c main_arg0) (V m c main_arg1))
    (fun t _ => flushed_eq m c t) covered

/-- Every weakly fair execution of the kernel's program terminates with the result array at the score table of the
    arguments and the arguments unchanged. -/
theorem run : θ_run defs (onTc (τ := τ) (main (F := Ideal))) ⟨m, fun _ => 0, ρ⟩ fun r => ∀ c : Dev nD,
      r.2.mem ((c : Thread nD τ).loc main_v0)
        = Cert.Yat.scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Yat.Kernel

end
-- ==== Proof.lean ====
/-
  Yat-similarity scores of 16384 sample vectors against 1024 prototype vectors, all of length 1024:
      score (r, c) = ⟨x_r, p_c⟩² / ((‖x_r‖² + ‖p_c‖²) − 2·⟨x_r, p_c⟩ + ε).

  The kernel walks the samples in 32 bands of 512 rows with the whole prototype table resident, and per band
  forms the inner products by one matrix product into a zero accumulator of operands narrowed to a shorter
  float format, the squared norms by row sums of squares, and then the quotient.  The reference does the same on
  whole arrays: one contraction, two host sums started from zero and spread along the other axis, and the host
  quotient.  On the extended reals narrowing is the identity, the product into zero and the contraction are the
  same finite sum, the row sums are the same finite sums (zero plus a sum is the sum), and both programs use the
  same two literal words for 2 and ε and apply the operations in the same order.  So entry by entry both results
  are the one function `Cert.Yat.scores` of the argument arrays; no law of the extended reals beyond `0 + s = s`
  is needed, and in particular nothing about finiteness of the inputs.

  The kernel's run with the result array named, and the reference's run one operation at a time, are the generated
  modules imported below.  The ideal pass rewrote nothing, so the idealization claim is trivial.
-/
import proofs.«176568_j34213709480382_1_alg».proof.Defs
import proofs.«176568_j34213709480382_1_alg».proof.Proof.Gen.Kernel
import proofs.«176568_j34213709480382_1_alg».proof.Proof.Gen.Kernel.Skeleton
import proofs.«176568_j34213709480382_1_alg».proof.Proof.Gen.Kernel.Launch
import proofs.«176568_j34213709480382_1_alg».proof.Proof.Gen.Kernel.Points
import proofs.«176568_j34213709480382_1_alg».proof.Proof.Gen.Kernel.Frame
import proofs.«176568_j34213709480382_1_alg».proof.Proof.Gen.KernelIdeal
import proofs.«176568_j34213709480382_1_alg».proof.Proof.Gen.KernelIdeal.Skeleton
import proofs.«176568_j34213709480382_1_alg».proof.Proof.Gen.KernelIdeal.Launch
import proofs.«176568_j34213709480382_1_alg».proof.Proof.Gen.KernelIdeal.Points
import proofs.«176568_j34213709480382_1_alg».proof.Proof.Gen.KernelIdeal.Frame
import proofs.«176568_j34213709480382_1_alg».proof.Proof.Gen.ReferenceIdeal
import proofs.«176568_j34213709480382_1_alg».proof.Proof.Gen.Pre_finite_inputs
import proofs.«176568_j34213709480382_1_alg».proof.Proof.Gen.KernelIdeal.Value
import proofs.«176568_j34213709480382_1_alg».proof.Proof.Gen.ReferenceIdeal.Run
import proofs.«176568_j34213709480382_1_alg».proof.Proof.Gen.ReferenceIdeal.Read
import proofs.«176568_j34213709480382_1_alg».proof.Proof.Yat
import proofs.«176568_j34213709480382_1_alg».proof.Proof.RefScores
import proofs.«176568_j34213709480382_1_alg».proof.Proof.KernelScores
import Idealize.ShloMosaic.Adequacy
import Idealize.ShloMosaic.Init

noncomputable section

namespace Cert.Proof

open Idealize.ShloMosaic Idealize.SL.Sem

/-- The word-level kernel terminates without fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, both programs end with the score table of those arguments. -/
theorem algebraic : Cert.algebraic_KernelIdeal_ReferenceIdeal := by
  intro m ρ m' ρ' _ hagree
  refine ⟨_, Cert.Yat.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Yat.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
